-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S800000 .f32) (main_arg3 : FVec F S800000 .f32) (main_arg4 : FVec F S128x128 .f32) (main_arg5 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S2000x128 : Shape := ⟨2, ![2000, 128]⟩

abbrev nBuf : Space → Nat
  | .hbm => 66
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000, .f32⟩
  | .hbm, ⟨4, _⟩ => ⟨S128x128, .f32⟩
  | .hbm, ⟨5, _⟩ => ⟨S128x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S800000, .f32⟩
  | .hbm, ⟨46, _⟩ => ⟨S800000, .f32⟩
  | .hbm, ⟨47, _⟩ => ⟨S800000, .f32⟩
  | .hbm, ⟨48, _⟩ => ⟨S800000, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v45) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩

abbrev nBuf : Space → Nat
  | .hbm => 71
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000, .f32⟩
  | .hbm, ⟨4, _⟩ => ⟨S128x128, .f32⟩
  | .hbm, ⟨5, _⟩ => ⟨S128x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S800000, .f32⟩
  | .hbm, ⟨46, _⟩ => ⟨S800000, .f32⟩
  | .hbm, ⟨47, _⟩ => ⟨S800000, .f32⟩
  | .hbm, ⟨48, _⟩ => ⟨S800000, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S128x128, .f32⟩
  | .hbm, ⟨67, _⟩ => ⟨S50000x128, .f32⟩
  | .hbm, ⟨68, _⟩ => ⟨S128x128, .f32⟩
  | .hbm, ⟨69, _⟩ => ⟨S50000x128, .f32⟩
  | .hbm, ⟨70, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.DualLinear.lean ====
/-
  The dense stage of the graph layer, as one function of its four arrays.

  With `s` the aggregated neighbour features (one row of 128 numbers per node), `x` the node features, and
  `w0`, `w1` two 128 × 128 weight matrices, entry `(r, o)` of the result is

      ∑ k, s[r,k] · w0[o,k]   +   ∑ k, (x[r,k] · s[r,k]) · w1[o,k] :

  row `r` of `s` against row `o` of `w0` (a product with the transposed weight), plus row `r` of the
  elementwise product `x ⊙ s` against row `o` of `w1`. Everything is read on the extended reals; no law beyond
  the definition is needed, because both programs form exactly these two sums, in this order, and add them.
  An entry depends on row `r` of `s` and of `x` only: cutting the rows into blocks computes the same array.
-/
import Idealize.ShloMosaic.PureOps.Ideal
import Idealize.ShloMosaic.Lib.ValueIdx

noncomputable section

open scoped BigOperators

namespace Cert.DualLinear

open Idealize.ShloMosaic Idealize.ShloMosaic.ValueIdx

/-- `n` rows of 128 features. -/
abbrev Rows (n : Nat) : Shape := ⟨2, ![n, 128]⟩
/-- A 128 × 128 weight matrix, stored output-major: row `o` holds the weights of output feature `o`. -/
abbrev Weights : Shape := ⟨2, ![128, 128]⟩

/-- Entry `(r, o)`: the two contractions over the 128 input features, added. -/
def entry {n : Nat} (s x : FVec Ideal (Rows n) .f32) (w0 w1 : FVec Ideal Weights .f32) (r : Fin n) (o : Fin 128) : EReal :=
  (∑ k : Fin 128, s (ix2 r k) * w0 (ix2 o k)) + ∑ k : Fin 128, (x (ix2 r k) * s (ix2 r k)) * w1 (ix2 o k)

/-- The whole array, index by index. -/
def dual {n : Nat} (s x : FVec Ideal (Rows n) .f32) (w0 w1 : FVec Ideal Weights .f32) : FVec Ideal (Rows n) .f32 :=
  fun i => entry s x w0 w1 (i 0) (i 1)

/-- At an index given by its coordinates. -/
theorem dual_apply {n : Nat} (s x : FVec Ideal (Rows n) .f32) (w0 w1 : FVec Ideal Weights .f32) (r : Fin n) (o : Fin 128) :
    dual s x w0 w1 (ix2 r o) = entry s x w0 w1 r o := rfl

/-- Equal arrays give equal results (used to replace each array by another name for it without opening it). -/
theorem dual_congr {n : Nat} {s s' x x' : FVec Ideal (Rows n) .f32} {w0 w0' w1 w1' : FVec Ideal Weights .f32}
    (hs : s = s') (hx : x = x') (h0 : w0 = w0') (h1 : w1 = w1') : dual s x w0 w1 = dual s' x' w0' w1' := by
  subst hs hx h0 h1; rfl

end Cert.DualLinear

end
-- ==== Proof.BlockValue.lean ====
/-
  What the kernel body stores, entry by entry.

  The body loads a block `sb` of 2000 rows of the aggregated features, the same rows `xb` of the node features, and the
  two weight matrices whole; it stores `sb · w0ᵀ + (xb ⊙ sb) · w1ᵀ`, each product taken into a zero accumulator.
  On the extended reals a change of float format is the identity and a product into a zero accumulator is the plain
  sum over the contracted axis, so entry `(p, q)` of the stored block is
  `∑ k, sb[p,k] · w0[q,k] + ∑ k, (xb[p,k] · sb[p,k]) · w1[q,k]`: the specification's `entry` of the loaded blocks.
  The transposed weight read at `(k, q)` is the weight at `(q, k)`.
-/
import proofs.«131168_j6511170421701_1_alg».proof.Proof.Gen.KernelIdeal.Skeleton
import proofs.«131168_j6511170421701_1_alg».proof.Proof.DualLinear
import Idealize.ShloMosaic.Lib.Pipeline.Value
import Idealize.ShloMosaic.Lib.ValueIdx
import Idealize.ShloMosaic.PureOps.Ideal.Laws

noncomputable section

open scoped BigOperators

namespace Cert.DualLinear.Block

open Cert.KernelIdeal Cert.KernelIdeal.Gen Idealize.ShloMosaic Idealize.ShloMosaic.ValueIdx Cert.DualLinear

/-! ## The contraction's operand indices: rows × features against features × outputs -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of a 2000 × 128 block with a 128 × 128 matrix into a zero accumulator, at entry `(p, q)`: the sum over the
    128 contracted features of left `(p, k)` times right `(k, q)`. -/
theorem product_entry {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The transposed weight, narrowed to the product's format, read at `(k, q)` is the weight at `(q, k)`. -/
theorem weightT_entry (w : FVec Ideal S128x128 .f32) (k q : Fin 128) :
    (transpose S128x128 [1, 0] (truncf .bf16 w bitsLt_bf16_f32) transposes_S128x128_p1_0_S128x128 : FVec Ideal S128x128 .bf16) (ix2 k q) = w (ix2 q k) :=
  (transpose_apply [1, 0] (truncf .bf16 w bitsLt_bf16_f32 : FVec Ideal S128x128 .bf16) transposes_S128x128_p1_0_S128x128 (ix2 k q) (ix2 q k) (fun b => match b with
    | ⟨0, _⟩ => rfl
    | ⟨1, _⟩ => rfl)).trans rfl

/-- THE STORED BLOCK, entry `(p, q)`: the specification's entry of the loaded blocks. -/
theorem stored_entry (sb xb : FVec Ideal S2000x128 .f32) (w0 w1 : FVec Ideal S128x128 .f32) (p : Fin 2000) (q : Fin 128) :
    k0_pay1 (F := Ideal) sb xb w0 w1 (ix2 p q) = entry (n := 2000) sb xb w0 w1 p q := by
  unfold k0_pay1
  dsimp only
  refine (addf_apply _ _ _).trans ?_
  unfold entry
  congr 1
  · refine (product_entry _ _ p q).trans (Finset.sum_congr rfl fun k _ => ?_)
    rw [weightT_entry, shapeCast_self]
    rfl
  · refine (product_entry _ _ p q).trans (Finset.sum_congr rfl fun k _ => ?_)
    rw [weightT_entry, shapeCast_self]
    rfl

end Cert.DualLinear.Block

end
-- ==== Proof.KernelArray.lean ====
/-
  From blocks to the whole output array.

  The grid has 25 points. Point `t` stages rows `2000·t … 2000·t + 1999` of the aggregated features and of the node
  features, both weight matrices whole, runs the body, and writes the stored block back to the same rows of the output.
  Row `r` of the output depends on row `r` of the two row arrays only, so what point `t` writes back is exactly rows
  `2000·t …` of `dual` of the four WHOLE arrays; the 25 row blocks cover all 50000 rows (row `r` lies in block
  `r / 2000`), hence the output array ends as `dual` of the arrays the launch finds.
-/
import proofs.«131168_j6511170421701_1_alg».proof.Proof.Gen.KernelIdeal.Value
import proofs.«131168_j6511170421701_1_alg».proof.Proof.BlockValue

noncomputable section

open scoped BigOperators

namespace Cert.DualLinear.Kernel

open Cert.KernelIdeal Cert.KernelIdeal.Gen Cert.KernelIdeal.Value Idealize.ShloMosaic Idealize.ShloMosaic.TcCoe Idealize.SL.Sem
open Idealize.ShloMosaic.ValueIdx Cert.DualLinear
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The four arrays as the launch finds them -/

/-- The aggregated neighbour features: what the host operations before the launch left. -/
abbrev sideArr (c : Dev nD) : FVec Ideal S50000x128 .f32 := V m c main_v45
/-- The node features. -/
abbrev featArr (c : Dev nD) : FVec Ideal S50000x128 .f32 := V m c main_arg0
/-- The two weight matrices. -/
abbrev w0Arr (c : Dev nD) : FVec Ideal S128x128 .f32 := V m c main_arg4
abbrev w1Arr (c : Dev nD) : FVec Ideal S128x128 .f32 := V m c main_arg5

/-- The specification at the launch's arrays. -/
abbrev result (c : Dev nD) : FVec Ideal S50000x128 .f32 := dual (n := 50000) (sideArr m c) (featArr m c) (w0Arr m c) (w1Arr m c)

/-! ## Which block each window stages at a point -/

/-- The row windows (aggregated features, node features, output) are at block row `t`, column block 0; the weight
    windows stay at block (0, 0). Decided over the 25 points. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Through the first row window's block at point `t`, ANY array of 50000 rows reads, at `(p, k)`, its entry
    `(2000·t + p, k)`: a block's coordinate is the block index times the block size plus the coordinate inside. -/
theorem rows_window0 (A : S50000x128.Idx → EReal) (t : Fin cfg0.N) (p : Fin 2000) (k : Fin 128) (r : Fin 50000) (hr : r.val = 2000 * t.val + p.val) :
    (((cfg0.win 0).blk t).view.read (Elt Ideal) A : S2000x128.Idx → EReal) (ix2 p k) = A (ix2 r k) := by
  obtain ⟨e0, e1, -⟩ := block_indices t
  rw [View.read_apply]
  show A _ = A _
  congr 1
  funext a
  apply Fin.ext
  match a with
  | ⟨0, _⟩ => show win0_0.index t 0 * 2000 + 1 * p.val = r.val; omega
  | ⟨1, _⟩ => show win0_0.index t 1 * 128 + 1 * k.val = k.val; omega

/-- The same for the second row window. -/
theorem rows_window1 (A : S50000x128.Idx → EReal) (t : Fin cfg0.N) (p : Fin 2000) (k : Fin 128) (r : Fin 50000) (hr : r.val = 2000 * t.val + p.val) :
    (((cfg0.win 1).blk t).view.read (Elt Ideal) A : S2000x128.Idx → EReal) (ix2 p k) = A (ix2 r k) := by
  obtain ⟨-, -, e0, e1, -⟩ := block_indices t
  rw [View.read_apply]
  show A _ = A _
  congr 1
  funext a
  apply Fin.ext
  match a with
  | ⟨0, _⟩ => show win0_1.index t 0 * 2000 + 1 * p.val = r.val; omega
  | ⟨1, _⟩ => show win0_1.index t 1 * 128 + 1 * k.val = k.val; omega

/-- Through a weight window's one block, at every point, any 128 × 128 array reads itself. -/
theorem whole_window2 (A : S128x128.Idx → EReal) (t : Fin cfg0.N) (q k : Fin 128) :
    (((cfg0.win 2).blk t).view.read (Elt Ideal) A : S128x128.Idx → EReal) (ix2 q k) = A (ix2 q k) := by
  obtain ⟨-, -, -, -, e0, e1, -⟩ := block_indices t
  rw [View.read_apply]
  show A _ = A _
  congr 1
  funext a
  apply Fin.ext
  match a with
  | ⟨0, _⟩ => show win0_2.index t 0 * 128 + 1 * q.val = q.val; omega
  | ⟨1, _⟩ => show win0_2.index t 1 * 128 + 1 * k.val = k.val; omega

theorem whole_window3 (A : S128x128.Idx → EReal) (t : Fin cfg0.N) (q k : Fin 128) :
    (((cfg0.win 3).blk t).view.read (Elt Ideal) A : S128x128.Idx → EReal) (ix2 q k) = A (ix2 q k) := by
  obtain ⟨-, -, -, -, -, -, e0, e1, -⟩ := block_indices t
  rw [View.read_apply]
  show A _ = A _
  congr 1
  funext a
  apply Fin.ext
  match a with
  | ⟨0, _⟩ => show win0_3.index t 0 * 128 + 1 * q.val = q.val; omega
  | ⟨1, _⟩ => show win0_3.index t 1 * 128 + 1 * k.val = k.val; omega

/-! ## What a point writes back, for any four arrays -/

/-- The four windows' blocks at point `t` of arbitrary arrays, at their literal shapes. -/
abbrev rows0 (t : Fin cfg0.N) (A : S50000x128.Idx → EReal) : FVec Ideal S2000x128 .f32 := ((cfg0.win 0).blk t).view.read (Elt Ideal) A
abbrev rows1 (t : Fin cfg0.N) (A : S50000x128.Idx → EReal) : FVec Ideal S2000x128 .f32 := ((cfg0.win 1).blk t).view.read (Elt Ideal) A
abbrev whole2 (t : Fin cfg0.N) (A : S128x128.Idx → EReal) : FVec Ideal S128x128 .f32 := ((cfg0.win 2).blk t).view.read (Elt Ideal) A
abbrev whole3 (t : Fin cfg0.N) (A : S128x128.Idx → EReal) : FVec Ideal S128x128 .f32 := ((cfg0.win 3).blk t).view.read (Elt Ideal) A

/-- Entry `(p, q)` of the block stored at point `t` is entry `(2000·t + p, q)` of the specification at the whole arrays. -/
theorem stored_is_rows (S X : S50000x128.Idx → EReal) (W0 W1 : S128x128.Idx → EReal) (t : Fin cfg0.N) (p : Fin 2000) (q : Fin 128)
    (r : Fin 50000) (hr : r.val = 2000 * t.val + p.val) :
    k0_pay1 (F := Ideal) (rows0 t S) (rows1 t X) (whole2 t W0) (whole3 t W1) (ix2 p q) = entry (n := 50000) S X W0 W1 r q := by
  refine (Block.stored_entry (rows0 t S) (rows1 t X) (whole2 t W0) (whole3 t W1) p q).trans ?_
  unfold entry
  refine congrArg₂ (fun a b : EReal => a + b) (Finset.sum_congr rfl fun k _ => ?_) (Finset.sum_congr rfl fun k _ => ?_)
  · exact congrArg₂ (fun a b : EReal => a * b) (rows_window0 S t p k r hr) (whole_window2 W0 t q k)
  · exact congrArg₂ (fun a b : EReal => a * b)
      (congrArg₂ (fun a b : EReal => a * b) (rows_window1 X t p k r hr) (rows_window0 S t p k r hr)) (whole_window3 W1 t q k)

/-- The body's result on the blocks of four arrays at point `t`, read through the output window's block, is the row block
    `2000·t …` of `dual` of the four WHOLE arrays. -/
theorem block_of_dual (S X : S50000x128.Idx → EReal) (W0 W1 : S128x128.Idx → EReal) (t : Fin cfg0.N) :
    (cfg0.win 4).cut (grid0.coords t) (out0_4 (F := Ideal) (rows0 t S) (rows1 t X) (whole2 t W0) (whole3 t W1))
      = ((cfg0.win 4).blk t).view.read (Elt Ideal) (dual (n := 50000) S X W0 W1) := by
  unfold out0_4
  rw [View.canon_unit_zero zero_offsets]
  simp only [View.ld_unit_zero (S := S2000x128) zero_offsets, View.ld_unit_zero (S := S128x128) zero_offsets]
  obtain ⟨-, -, -, -, -, -, -, -, e0, e1⟩ := block_indices t
  have hN : cfg0.N = 25 := N_0
  have ht : t.val < 25 := hN ▸ t.isLt
  show (k0_pay1 (F := Ideal) (rows0 t S) (rows1 t X) (whole2 t W0) (whole3 t W1) : S2000x128.Idx → EReal)
      = fun j : S2000x128.Idx => dual (n := 50000) S X W0 W1 (((cfg0.win 4).blk t).view.emb j)
  funext j
  obtain ⟨p, q, rfl⟩ : ∃ (p : Fin 2000) (q : Fin 128), j = ix2 p q := ⟨j 0, j 1, eq_ix2 j⟩
  have hr : 2000 * t.val + p.val < 50000 := by have := p.isLt; omega
  have he : (((cfg0.win 4).blk t).view.emb (ix2 p q) : S50000x128.Idx) = ix2 (⟨2000 * t.val + p.val, hr⟩ : Fin 50000) q := by
    funext a
    apply Fin.ext
    match a with
    | ⟨0, _⟩ => show win0_4.index t 0 * 2000 + 1 * p.val = 2000 * t.val + p.val; omega
    | ⟨1, _⟩ => show win0_4.index t 1 * 128 + 1 * q.val = q.val; omega
  refine Eq.trans ?_ (congrArg (dual (n := 50000) S X W0 W1) he).symm
  exact (stored_is_rows S X W0 W1 t p q ⟨2000 * t.val + p.val, hr⟩ rfl).trans
    (dual_apply (n := 50000) S X W0 W1 ⟨2000 * t.val + p.val, hr⟩ q).symm

/-- WHAT POINT `t` WRITES BACK is its row block of the specification at the arrays the launch finds. -/
theorem written_back (c : Dev nD) (t : Fin cfg0.N) :
    (dats m 0 c).flushed 4 t = ((cfg0.win 4).blk t).view.read (Elt Ideal) (result m c) :=
  (flushed4 m c t).trans (block_of_dual (V m c main_v45) (V m c main_arg0) (V m c main_arg4) (V m c main_arg5) t)

/-! ## The cover, and the array after the run -/

/-- An index is in point `t`'s output block iff each coordinate is in the block's range on its axis. -/
theorem mem_block (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v46).slice (win0_4.rect t)).set ↔ _
  rw [View.set_slice_whole, Rect.mem_set_unit]
  exact Iff.rfl

/-- Every index of the output lies in the block of the point `row / 2000`, which writes back. -/
theorem covered (i : S50000x128.Idx) :
    ∃ t : Fin cfg0.N, (cfg0.win 4).flush t = true ∧ i ∈ ((cfg0.win 4).blk t).view.set := by
  have h0 : (i 0).val < 50000 := (i 0).isLt
  have h1 : (i 1).val < 128 := (i 1).isLt
  have hN : cfg0.N = 25 := N_0
  refine ⟨⟨(i 0).val / 2000, by rw [hN]; omega⟩, flush0_4 _, ?_⟩
  obtain ⟨-, -, -, -, -, -, -, -, e0, e1⟩ := block_indices ⟨(i 0).val / 2000, by rw [hN]; omega⟩
  rw [mem_block]
  intro a
  match a with
  | ⟨0, _⟩ =>
    show win0_4.index ⟨(i 0).val / 2000, _⟩ 0 * 2000 ≤ (i 0).val ∧ (i 0).val < win0_4.index ⟨(i 0).val / 2000, _⟩ 0 * 2000 + 2000
    rw [e0]
    show (i 0).val / 2000 * 2000 ≤ (i 0).val ∧ (i 0).val < (i 0).val / 2000 * 2000 + 2000
    omega
  | ⟨1, _⟩ =>
    show win0_4.index ⟨(i 0).val / 2000, _⟩ 1 * 128 ≤ (i 1).val ∧ (i 1).val < win0_4.index ⟨(i 0).val / 2000, _⟩ 1 * 128 + 128
    rw [e1]
    omega

/-- THE OUTPUT ARRAY after the run is the specification at the arrays the launch finds. -/
theorem output_array (c : Dev nD) : (dats m 0 c).arrAt 4 cfg0.N = result m c :=
  (dats m 0 c).arrAt_eq_of_cover 4 (result m c) (fun t _ => written_back m c t) covered

/-- The run, read: the result at the specification of the launch's arrays, the arguments unchanged. -/
theorem run : θ_run defs (onTc (τ := τ) (main (F := Ideal))) ⟨m, fun _ => 0, ρ⟩ fun r => ∀ c : Dev nD,
      r.2.mem ((c : Thread nD τ).loc main_v46) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (output_array m c), (h c).2⟩) (run_blocks m ρ)

end Cert.DualLinear.Kernel

end
-- ==== Proof.SideTerm.lean ====
/-
  The aggregated neighbour features are one term on both sides.

  Before its launch the kernel program runs, on the host, the degree count, the normalisation, the edge weights
  `exp(-d²) · norm`, the gather of neighbour rows and the scatter-add into rows: the same operations, with the same
  dimension records and the same constants, as the reference program runs before its two products. So the array the
  launch finds in the first row window is the reference's stage of that scatter-add, as a function of the node
  features, the edge list and the edge distances. Nothing of that term is opened: it is only compared with itself.
  (Stated at any float family: the two terms are the same composition of operations whatever the operations mean.)
-/
import proofs.«131168_j6511170421701_1_alg».proof.Proof.Gen.KernelIdeal.Frame
import proofs.«131168_j6511170421701_1_alg».proof.Proof.ReferenceRead
import Idealize.ShloMosaic.Lib.StableHlo.Run

noncomputable section

namespace Cert.DualLinear.Prefix

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 16384 in
set_option maxHeartbeats 4000000 in
/-- What the launch finds in the aggregated-features window's array: the reference's scatter-add stage of the kernel
    program's own arguments. -/
theorem side_is_reference_stage (c : Dev nD) :
    (V m c main_v45 : S50000x128.Idx → Elt F .f32)
      = Cert.ReferenceIdeal.PatchedRead.val_main_v45 (F := F) (m ((c : Thread nD τ).loc main_arg0)) (m ((c : Thread nD τ).loc main_arg1)) (m ((c : Thread nD τ).loc main_arg3)) := by
  dsimp only [V]
  simp only [hostOps0, hostOps0_1, hostOps0_2, List.flatten_cons, List.flatten_nil, List.append_nil, List.cons_append, List.nil_append]
  after_results_simp
  rfl

end Cert.DualLinear.Prefix

end
-- ==== Proof.ReferenceValue.lean ====
/-
  The reference's result is the specification.

  After the shared host prefix the reference multiplies the node features by the aggregated features entry by entry,
  transposes each weight matrix, takes the two products `s · w0ᵀ` and `(x ⊙ s) · w1ᵀ`, and adds them. Read at an
  index `(r, o)`, a product with a transposed weight is the sum over `k` of the left operand at `(r, k)` times the
  weight at `(o, k)`: the specification's `entry`, with the aggregated features the stage of the scatter-add.
-/
import proofs.«131168_j6511170421701_1_alg».proof.Proof.ReferenceRead
import proofs.«131168_j6511170421701_1_alg».proof.Proof.DualLinear

noncomputable section

open scoped BigOperators

namespace Cert.DualLinear.Reference

open Cert.ReferenceIdeal Cert.ReferenceIdeal.PatchedRead Idealize.ShloMosaic Idealize.ShloMosaic.ValueIdx Cert.DualLinear

/-- The left operand of either product is read at row `r`, feature `k`. -/
theorem left_index (i : S50000x128.Idx) (k : Fin 128) : lidx_main_v48 i k = ix2 (i 0) k :=
  funext fun a => by match a with | ⟨0, _⟩ => rfl | ⟨1, _⟩ => rfl
theorem left_index' (i : S50000x128.Idx) (k : Fin 128) : lidx_main_v50 i k = ix2 (i 0) k :=
  funext fun a => by match a with | ⟨0, _⟩ => rfl | ⟨1, _⟩ => rfl
/-- The transposed weight at feature `k`, output `o` is the weight at `(o, k)`. -/
theorem weight_index (i : S50000x128.Idx) (k : Fin 128) : idx_main_v47 (ridx_main_v48 i k) = ix2 (i 1) k :=
  funext fun a => by match a with | ⟨0, _⟩ => rfl | ⟨1, _⟩ => rfl
theorem weight_index' (i : S50000x128.Idx) (k : Fin 128) : idx_main_v49 (ridx_main_v50 i k) = ix2 (i 1) k :=
  funext fun a => by match a with | ⟨0, _⟩ => rfl | ⟨1, _⟩ => rfl

/-- THE REFERENCE'S RESULT, as a function of its arguments: `dual` of the scatter-add stage, the node features and the
    two weight matrices. -/
theorem result_is_dual (x0 : (⟨S50000x128, .f32⟩ : BufTy).Contents (Elt Ideal)) (x1 : (⟨S2x800000, .i32⟩ : BufTy).Contents (Elt Ideal))
    (x3 : (⟨S800000, .f32⟩ : BufTy).Contents (Elt Ideal)) (x4 x5 : (⟨S128x128, .f32⟩ : BufTy).Contents (Elt Ideal)) :
    val_main_v51 (F := Ideal) x0 x1 x3 x4 x5 = dual (n := 50000) (val_main_v45 (F := Ideal) x0 x1 x3) x0 x4 x5 := by
  funext i
  refine (val_main_v51_apply x0 x1 x3 x4 x5 i).trans ?_
  refine (congrArg₂ (fun a b : EReal => a + b) (val_main_v48_apply x0 x1 x3 x4 i) (val_main_v50_apply x0 x1 x3 x5 i)).trans ?_
  unfold dual entry
  refine congrArg₂ (fun a b : EReal => a + b) (Finset.sum_congr rfl fun k _ => ?_) (Finset.sum_congr rfl fun k _ => ?_)
  · rw [val_main_v47_apply, left_index, weight_index]
    rfl
  · rw [val_main_v49_apply, val_main_v46_apply, left_index', weight_index']
    rfl

end Cert.DualLinear.Reference

end
-- ==== Proof.lean ====
/-
  A graph layer's dense stage: `side · W0ᵀ + (x ⊙ side) · W1ᵀ`, computed by a row-blocked kernel, against the same
  expression written with two whole matrix products.

  Both programs first build, by the same host operations, the aggregated neighbour features `side` (degree count,
  symmetric normalisation, edge weights `exp(-d²)`, a gather of neighbour rows and a scatter-add into rows). The
  kernel program then cuts the 50000 rows into 25 blocks of 2000 and, per block, forms `sb · W0ᵀ + (xb ⊙ sb) · W1ᵀ`
  with both weights resident; the reference forms the two products over all rows at once and adds them. On the
  extended reals a change of float format is the identity and a product into a zero accumulator is the plain sum over
  the 128 contracted features, so both sides compute, at entry `(r, o)`,

      ∑ k, side[r,k] · W0[o,k]  +  ∑ k, (x[r,k] · side[r,k]) · W1[o,k]

  (`Cert.DualLinear.dual`). An entry reads row `r` of `side` and of `x` only, which is why the row blocks of the
  kernel tile the reference's array. No law of arithmetic beyond the definitions is used, so the finiteness of the
  inputs is never opened; `side` itself is never opened either: it is one term, the same on both sides.

  The modules: DualLinear (the function), BlockValue (the body's stored block, entry by entry), KernelArray (the 25
  blocks cover the output: the array after the kernel's run), SideTerm (the aggregated features the launch finds are
  the reference's stage), ReferenceValue (the reference's result is the function); ReferenceRun / ReferenceRead hold
  the reference's run and its operations read at an index.
-/
import proofs.«131168_j6511170421701_1_alg».proof.Defs
import proofs.«131168_j6511170421701_1_alg».proof.Proof.Gen.Kernel
import proofs.«131168_j6511170421701_1_alg».proof.Proof.Gen.Kernel.Skeleton
import proofs.«131168_j6511170421701_1_alg».proof.Proof.Gen.Kernel.Launch
import proofs.«131168_j6511170421701_1_alg».proof.Proof.Gen.Kernel.Points
import proofs.«131168_j6511170421701_1_alg».proof.Proof.Gen.Kernel.Frame
import proofs.«131168_j6511170421701_1_alg».proof.Proof.Gen.KernelIdeal
import proofs.«131168_j6511170421701_1_alg».proof.Proof.Gen.KernelIdeal.Skeleton
import proofs.«131168_j6511170421701_1_alg».proof.Proof.Gen.KernelIdeal.Launch
import proofs.«131168_j6511170421701_1_alg».proof.Proof.Gen.KernelIdeal.Points
import proofs.«131168_j6511170421701_1_alg».proof.Proof.Gen.KernelIdeal.Frame
import proofs.«131168_j6511170421701_1_alg».proof.Proof.Gen.ReferenceIdeal
import proofs.«131168_j6511170421701_1_alg».proof.Proof.Gen.Pre_finite_inputs
import proofs.«131168_j6511170421701_1_alg».proof.Proof.Gen.KernelIdeal.Value
import proofs.«131168_j6511170421701_1_alg».proof.Proof.ReferenceRun
import proofs.«131168_j6511170421701_1_alg».proof.Proof.ReferenceRead
import proofs.«131168_j6511170421701_1_alg».proof.Proof.KernelArray
import proofs.«131168_j6511170421701_1_alg».proof.Proof.SideTerm
import proofs.«131168_j6511170421701_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel's result, written over the program's ARGUMENTS: the aggregated features the launch finds are the
    reference's scatter-add stage of the arguments, and no host operation before the launch writes an argument. -/
theorem kernel_result_of_arguments (m : (ℓ : Loc Cert.KernelIdeal.nD Cert.KernelIdeal.τ Cert.KernelIdeal.sig) → Buf (Elt Ideal) ℓ) (c : Dev Cert.KernelIdeal.nD) :
    Cert.DualLinear.Kernel.result m c
      = Cert.DualLinear.dual (n := 50000)
          (Cert.ReferenceIdeal.PatchedRead.val_main_v45 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg3)))
          (m ((c : Thread Cert.KernelIdeal.nD Cert.KernelIdeal.τ).loc Cert.KernelIdeal.main_arg0))
          (m ((c : Thread Cert.KernelIdeal.nD Cert.KernelIdeal.τ).loc Cert.KernelIdeal.main_arg4))
          (m ((c : Thread Cert.KernelIdeal.nD Cert.KernelIdeal.τ).loc Cert.KernelIdeal.main_arg5)) :=
  Cert.DualLinear.dual_congr (Cert.DualLinear.Prefix.side_is_reference_stage m c) (Cert.KernelIdeal.Gen.V_main_arg0 m c)
    (Cert.KernelIdeal.Gen.V_main_arg4 m c) (Cert.KernelIdeal.Gen.V_main_arg5 m c)

theorem frame_kernel : Cert.frame_Kernel := fun m ρ _ => Cert.Kernel.Gen.frame m ρ
theorem frame_kernel_ideal : Cert.frame_KernelIdeal := fun m ρ _ => Cert.KernelIdeal.Gen.frame m ρ
/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.PatchedValue.run (F := Ideal) m ρ)

/-- Both runs end with the result array at `dual` of the aggregated features, the node features and the two weights,
    all as functions of arguments that agree. -/
theorem algebraic : Cert.algebraic_KernelIdeal_ReferenceIdeal := by
  intro m ρ m' ρ' _ hagree
  refine ⟨fun c => Cert.DualLinear.Kernel.result m c, Cert.DualLinear.Kernel.run m ρ, ?_⟩
  refine (θ_run Cert.ReferenceIdeal.defs _ _).mono (fun _ h c => ⟨(h c).1.trans ?_, (h c).2⟩)
    (Cert.ReferenceIdeal.PatchedValue.run (F := Ideal) m' ρ')
  refine Eq.trans ?_ (kernel_result_of_arguments m c).symm
  obtain ⟨a0, a1, a2, a3, a4, a5⟩ := hagree c
  rw [Cert.ReferenceIdeal.PatchedRead.val_main_v51_eq, Cert.DualLinear.Reference.result_is_dual, a0, a1, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
